-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x16 : Shape := ⟨2, ![512, 16]⟩
abbrev S16 : Shape := ⟨1, ![16]⟩
abbrev S16x16 : Shape := ⟨2, ![16, 16]⟩
abbrev S100000x16 : Shape := ⟨2, ![100000, 16]⟩
abbrev S2x3200000 : Shape := ⟨2, ![2, 3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S100000x16 : S_.BroadcastsInDim S100000x16 (![] : Fin 0 → Fin S100000x16.rank)
  reducesTo_S100000x16_S_d0_1 : S100000x16.ReducesTo [0, 1] S_

variable [Facts]

def fn_part1 {F : FTy → Type} [FloatOps F] (main_arg4 : FVec F S16 .f32) (main_arg5 : FVec F S100000x16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S100000x16 .f32 := Host.absf main_arg5
  let main_cst_8 : FVec F S_ .f32 := constant S_ .f32 0x7F800000#32
  let main_v25 : FVec F S100000x16 .f32 := broadcastInDim S100000x16 ![] bcast_S_S100000x16 main_cst_8
  let main_v26 : IVec S100000x16 1 := cmpf .olt main_v24 main_v25
  let main_c_9 : IVec S_ 1 := constantI S_ 1 1#1
  let main_v27 : IVec S_ 1 := (fun x v => Host.reduce IntOp.andi x v reducesTo_S100000x16_S_d0_1 h_S_) main_v26 main_c_9
  let main_v28 : IVec S_ 1 := andi main_v23 main_v27
  main_v28

def fn {F : FTy → Type} [FloatOps F] (main_arg0 : FVec F S100000x512 .f32) (main_arg1 : FVec F S512x16 .f32) (main_arg2 : FVec F S16 .f32) (main_arg3 : FVec F S16x16 .f32) (main_arg4 : FVec F S16 .f32) (main_arg5 : FVec F S100000x16 .f32) (main_arg6 : IVec S2x3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_arg5 main_v13 main_v16
-- ==== Kernel.lean ====
abbrev S100000x512 : Shape := ⟨2, ![100000, 512]⟩
abbrev S512x16 : Shape := ⟨2, ![512, 16]⟩
abbrev S16 : Shape := ⟨1, ![16]⟩
abbrev S16x16 : Shape := ⟨2, ![16, 16]⟩
abbrev S100000x16 : Shape := ⟨2, ![100000, 16]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S4000x512 : Shape := ⟨2, ![4000, 512]⟩
abbrev S4000x16 : Shape := ⟨2, ![4000, 16]⟩
abbrev S3300000x16 : Shape := ⟨2, ![3300000, 16]⟩
abbrev S1x16 : Shape := ⟨2, ![1, 16]⟩
abbrev S10000x16 : Shape := ⟨2, ![10000, 16]⟩

abbrev nBuf : Space → Nat
  | .hbm => 78
  | .vmem => 22
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S100000x16, .f32⟩
  | .hbm, ⟨6, _⟩ => ⟨S2x3200000, .i32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S3300000, .i32⟩
  | .hbm, ⟨23, _⟩ => ⟨S3300000, .i1⟩
  | .hbm, ⟨24, _⟩ => ⟨S_, .i32⟩
  | .hbm, ⟨25, _⟩ => ⟨S3300000, .i32⟩
  | .hbm, ⟨26, _⟩ => ⟨S3300000, .i32⟩
  | .hbm, ⟨27, _⟩ => ⟨S3300000, .i32⟩
  | .hbm, ⟨28, _⟩ => ⟨S3300000x1, .i32⟩
  | .hbm, ⟨29, _⟩ => ⟨S3300000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S3300000, .f32⟩
  | .hbm, ⟨40, _⟩ => ⟨S100000x16, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000x16, .f32⟩
  | .hbm, ⟨50, _⟩ => ⟨S3300000x1, .f32⟩
  | .hbm, ⟨51, _⟩ => ⟨S3300000x16, .f32⟩
  | .hbm, ⟨52, _⟩ => ⟨S3300000x16, .f32⟩
  | .hbm, ⟨53, _⟩ => ⟨S_, .f32⟩
  | .hbm, ⟨54, _⟩ => ⟨S100000x16, .f32⟩
  | .hbm, ⟨55, _⟩ => ⟨S3300000x1, .i32⟩
  | .hbm, ⟨56, _⟩ => ⟨S100000x16, .f32⟩
  | .hbm, ⟨57, _⟩ => ⟨S1x16, .f32⟩
  | .hbm, ⟨58, _⟩ => ⟨S100000x16, .f32⟩
  | .hbm, ⟨59, _⟩ => ⟨S100000x16, .f32⟩
  | .hbm, ⟨60, _⟩ => ⟨S_, .i32⟩
  | .hbm, ⟨61, _⟩ => ⟨S3300000, .i32⟩
  | .hbm, ⟨62, _⟩ => ⟨S3300000, .i1⟩
  | .hbm, ⟨63, _⟩ => ⟨S_, .i32⟩
  | .hbm, ⟨64, _⟩ => ⟨S3300000, .i32⟩
  | .hbm, ⟨65, _⟩ => ⟨S3300000, .i32⟩
  | .hbm, ⟨66, _⟩ => ⟨S3300000, .i32⟩
  | .hbm, ⟨67, _⟩ => ⟨S3300000x1, .i32⟩
  | .hbm, ⟨68, _⟩ => ⟨S3300000x16, .f32⟩
  | .hbm, ⟨69, _⟩ => ⟨S3300000x1, .f32⟩
  | .hbm, ⟨70, _⟩ => ⟨S3300000x16, .f32⟩
  | .hbm, ⟨71, _⟩ => ⟨S3300000x16, .f32⟩
  | .hbm, ⟨72, _⟩ => ⟨S_, .f32⟩
  | .hbm, ⟨73, _⟩ => ⟨S100000x16, .f32⟩
  | .hbm, ⟨74, _⟩ => ⟨S3300000x1, .i32⟩
  | .hbm, ⟨75, _⟩ => ⟨S100000x16, .f32⟩
  | .hbm, ⟨76, _⟩ => ⟨S1x16, .f32⟩
  | .hbm, ⟨77, _⟩ => ⟨S100000x16, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x16, .f32⟩
  | .local _ .vmem, ⟨4, _⟩ => ⟨S4000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S1x16, .f32⟩
  | .local _ .vmem, ⟨18, _⟩ => ⟨S10000x16, .f32⟩
  | .local _ .vmem, ⟨19, _⟩ => ⟨S10000x16, .f32⟩
  | .local _ .vmem, ⟨20, _⟩ => ⟨S10000x16, .f32⟩
  | .local _ .vmem, ⟨21, _⟩ => ⟨S10000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_7 : Ref sig .tc := ⟨.hbm, 60, rfl⟩
abbrev main_v44 : Ref sig .tc := ⟨.hbm, 61, rfl⟩
abbrev main_v45 : Ref sig .tc := ⟨.hbm, 62, rfl⟩
abbrev main_c_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S10000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x16_S4000x16_0_0 : ∀ a, (![0, 0] : Fin 2 → Nat) a + S4000x16.size a ≤ S4000x16.size a
  h_S4000x16 : 0 < S4000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x16_S16x16_0_0 : ∀ a, (![0, 0] : Fin 2 → Nat) a + S16x16.size a ≤ S16x16.size a
  h_S16x16 : 0 < S16x16.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x512_S512x16_S4000x16_1_0_0_1_n_n_wf : DotDims.WF S4000x512 S512x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x16_S10000x16_1_0_0_1_n_n_wf : DotDims.WF S10000x16 S16x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x16.size a ≤ S100000x16.size a
  hwx3_2 : ∀ i : grid3.Coords, EltTy.bits .f32 = 32 ∨ (Rect.block (s := S100000x16) S10000x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x16.size a ≤ S100000x16.size a
  hwx3_3 : ∀ i : grid3.Coords, EltTy.bits .f32 = 32 ∨ (Rect.block (s := S100000x16) S10000x16.size (cc3_transform_3 i) (hinb3_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S10000x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S10000x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x512 : Shape := ⟨2, ![100000, 512]⟩
abbrev S512x16 : Shape := ⟨2, ![512, 16]⟩
abbrev S16 : Shape := ⟨1, ![16]⟩
abbrev S16x16 : Shape := ⟨2, ![16, 16]⟩
abbrev S100000x16 : Shape := ⟨2, ![100000, 16]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩

abbrev nBuf : Space → Nat
  | .hbm => 108
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S100000x16, .f32⟩
  | .hbm, ⟨6, _⟩ => ⟨S2x3200000, .i32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S100000, .f32⟩
  | .hbm, ⟨21, _⟩ => ⟨S100000x16, .f32⟩
  | .hbm, ⟨22, _⟩ => ⟨S_, .i32⟩
  | .hbm, ⟨23, _⟩ => ⟨S3300000, .i32⟩
  | .hbm, ⟨24, _⟩ => ⟨S3300000, .i1⟩
  | .hbm, ⟨25, _⟩ => ⟨S_, .i32⟩
  | .hbm, ⟨26, _⟩ => ⟨S3300000, .i32⟩
  | .hbm, ⟨27, _⟩ => ⟨S3300000, .i32⟩
  | .hbm, ⟨28, _⟩ => ⟨S3300000, .i32⟩
  | .hbm, ⟨29, _⟩ => ⟨S3300000x1, .i32⟩
  | .hbm, ⟨30, _⟩ => ⟨S3300000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S3300000, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000x16, .f32⟩
  | .hbm, ⟨50, _⟩ => ⟨S3300000x1, .f32⟩
  | .hbm, ⟨51, _⟩ => ⟨S3300000x16, .f32⟩
  | .hbm, ⟨52, _⟩ => ⟨S3300000x16, .f32⟩
  | .hbm, ⟨53, _⟩ => ⟨S_, .f32⟩
  | .hbm, ⟨54, _⟩ => ⟨S100000x16, .f32⟩
  | .hbm, ⟨55, _⟩ => ⟨S3300000x1, .i32⟩
  | .hbm, ⟨56, _⟩ => ⟨S100000x16, .f32⟩
  | .hbm, ⟨57, _⟩ => ⟨S1x16, .f32⟩
  | .hbm, ⟨58, _⟩ => ⟨S100000x16, .f32⟩
  | .hbm, ⟨59, _⟩ => ⟨S100000x16, .f32⟩
  | .hbm, ⟨60, _⟩ => ⟨S_, .f32⟩
  | .hbm, ⟨61, _⟩ => ⟨S100000x16, .f32⟩
  | .hbm, ⟨62, _⟩ => ⟨S100000x16, .f32⟩
  | .hbm, ⟨63, _⟩ => ⟨S100000x16, .f32⟩
  | .hbm, ⟨64, _⟩ => ⟨S_, .i32⟩
  | .hbm, ⟨65, _⟩ => ⟨S3300000, .i32⟩
  | .hbm, ⟨66, _⟩ => ⟨S3300000, .i1⟩
  | .hbm, ⟨67, _⟩ => ⟨S_, .i32⟩
  | .hbm, ⟨68, _⟩ => ⟨S3300000, .i32⟩
  | .hbm, ⟨69, _⟩ => ⟨S3300000, .i32⟩
  | .hbm, ⟨70, _⟩ => ⟨S3300000, .i32⟩
  | .hbm, ⟨71, _⟩ => ⟨S3300000x1, .i32⟩
  | .hbm, ⟨72, _⟩ => ⟨S3300000, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000, .f32⟩
  | .hbm, ⟨82, _⟩ => ⟨S3300000, .f32⟩
  | .hbm, ⟨83, _⟩ => ⟨S_, .i32⟩
  | .hbm, ⟨84, _⟩ => ⟨S3300000, .i32⟩
  | .hbm, ⟨85, _⟩ => ⟨S3300000, .i1⟩
  | .hbm, ⟨86, _⟩ => ⟨S_, .i32⟩
  | .hbm, ⟨87, _⟩ => ⟨S3300000, .i32⟩
  | .hbm, ⟨88, _⟩ => ⟨S3300000, .i32⟩
  | .hbm, ⟨89, _⟩ => ⟨S3300000, .i32⟩
  | .hbm, ⟨90, _⟩ => ⟨S3300000x1, .i32⟩
  | .hbm, ⟨91, _⟩ => ⟨S3300000x16, .f32⟩
  | .hbm, ⟨92, _⟩ => ⟨S3300000x1, .f32⟩
  | .hbm, ⟨93, _⟩ => ⟨S3300000x16, .f32⟩
  | .hbm, ⟨94, _⟩ => ⟨S3300000x16, .f32⟩
  | .hbm, ⟨95, _⟩ => ⟨S_, .f32⟩
  | .hbm, ⟨96, _⟩ => ⟨S100000x16, .f32⟩
  | .hbm, ⟨97, _⟩ => ⟨S3300000x1, .i32⟩
  | .hbm, ⟨98, _⟩ => ⟨S100000x16, .f32⟩
  | .hbm, ⟨99, _⟩ => ⟨S1x16, .f32⟩
  | .hbm, ⟨100, _⟩ => ⟨S100000x16, .f32⟩
  | .hbm, ⟨101, _⟩ => ⟨S100000x16, .f32⟩
  | .hbm, ⟨102, _⟩ => ⟨S_, .f32⟩
  | .hbm, ⟨103, _⟩ => ⟨S100000x16, .f32⟩
  | .hbm, ⟨104, _⟩ => ⟨S100000x16, .f32⟩
  | .hbm, ⟨105, _⟩ => ⟨S100000x16, .f32⟩
  | .hbm, ⟨106, _⟩ => ⟨S100000x16, .f32⟩
  | .hbm, ⟨107, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call0_cst : Ref sig .tc := ⟨.hbm, 60, rfl⟩
abbrev main_call0_v0 : Ref sig .tc := ⟨.hbm, 61, rfl⟩
abbrev main_v44 : Ref sig .tc := ⟨.hbm, 62, rfl⟩
abbrev main_v45 : Ref sig .tc := ⟨.hbm, 63, rfl⟩
abbrev main_c_7 : Ref sig .tc := ⟨.hbm, 64, rfl⟩
abbrev main_v46 : Ref sig .tc := ⟨.hbm, 65, rfl⟩
abbrev main_v47 : Ref sig .tc := ⟨.hbm, 66, rfl⟩
abbrev main_c_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_9 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_11 : Ref sig .tc := ⟨.hbm, 83, rfl⟩
abbrev main_v61 : Ref sig .tc := ⟨.hbm, 84, rfl⟩
abbrev main_v62 : Ref sig .tc := ⟨.hbm, 85, rfl⟩
abbrev main_c_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_13 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_14 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S3300000x1_S3300000_n_0_0_1_wf : ScatterDims.WF S100000 S3300000x1 S3300000 [] [0] [0] 1
  dot_S100000x512_S512x16_S100000x16_1_0_0_1_n_n_wf : DotDims.WF S100000x512 S512x16 S100000x16 [1] [0] [0] [1] [] []
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf

class Facts : Prop extends Facts₀ where

variable [Facts]
-- ==== Proof.Spec.lean ====
/-
  The two-layer graph-convolution encoder with a reparameterised sample, as ONE function of its seven arguments.

  Edges: the edge list `e` has two rows (sources, destinations) of 3 200 000 node numbers; one self-loop per node is
  appended to each row (`src`, `dst`: 3 300 000 entries). A negative node number is read from the end (`wrap`).
  Degrees: `dis d` is deg^(-1/2), deg the number of edges arriving at each node; `norm s d` is, per edge,
  deg^(-1/2)(source) · deg^(-1/2)(destination).
  One convolution of a node table `h` (100 000 × 16): `agg h s d n` sums, into each destination node's row, the source
  node's row scaled by the edge's weight.
  The encoder: z₁ = relu (agg (x · W₁) + b₁), z = agg (z₁ · W₂) + b₂, result z + ε · exp (z / 2).

  Every piece is stated with the operations of the extended reals the host program uses, so that the reference's run
  term is this function by unfolding, and each kernel region is shown to compute one of the pieces `lin1`, `relu ∘ biased`,
  `lin2`, `sample ∘ biased`.
-/
import proofs.«122980_j48808008351905_1_alg».proof.Proof.Gen.ReferenceIdeal
import Idealize.ShloMosaic.PureOps.Ideal

noncomputable section

namespace Cert.Spec

open Idealize.ShloMosaic Cert.ReferenceIdeal Cert.ReferenceIdeal.Gen

variable {F : FTy → Type} [FloatOps F]

/-- The sources of all edges: row 0 of the edge list, then each node once (its self-loop). -/
def src (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The destinations of all edges: row 1 of the edge list, then each node once. -/
def dst (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- Node numbers as a column of row indices into a 100 000-row table, a negative number counted from the end. -/
def wrap (v : (⟨S3300000, .i32⟩ : BufTy).Contents (Elt F)) : (⟨S3300000x1, .i32⟩ : BufTy).Contents (Elt F) :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- deg^(-1/2) per node, deg counting the edges (self-loops included) that arrive at the node. -/
def dis (d : (⟨S3300000, .i32⟩ : BufTy).Contents (Elt F)) : (⟨S100000, .f32⟩ : BufTy).Contents (Elt F) :=
  Host.rsqrt (Host.scatterAdd scatter_S100000_S3300000x1_S3300000_n_0_0_1
    (broadcastInDim S100000 ![] bcast_S_S100000 (constant S_ .f32 0x00000000#32))
    (broadcastInDim S3300000x1 ![0] bcast_S3300000_S3300000x1_0 d)
    (broadcastInDim S3300000 ![] bcast_S_S3300000 (constant S_ .f32 0x3F800000#32)))

/-- The weight of each edge: deg^(-1/2) at its source times deg^(-1/2) at its destination. -/
def norm (s d : (⟨S3300000, .i32⟩ : BufTy).Contents (Elt F)) : (⟨S3300000, .f32⟩ : BufTy).Contents (Elt F) :=
  mulf (Host.gather gather_S100000_S3300000x1_S3300000_n_0_n_n_0_1_1 (dis d) (wrap s))
    (Host.gather gather_S100000_S3300000x1_S3300000_n_0_n_n_0_1_1 (dis d) (wrap d))

/-- One propagation step: row `j` of the result is the sum over the edges arriving at `j` of the source's row of `h`
    times the edge's weight. -/
def agg (h : (⟨S100000x16, .f32⟩ : BufTy).Contents (Elt F)) (s d : (⟨S3300000, .i32⟩ : BufTy).Contents (Elt F))
    (n : (⟨S3300000, .f32⟩ : BufTy).Contents (Elt F)) : (⟨S100000x16, .f32⟩ : BufTy).Contents (Elt F) :=
  Host.scatterAdd scatter_S100000x16_S3300000x1_S3300000x16_1_0_0_1
    (broadcastInDim S100000x16 ![] bcast_S_S100000x16 (constant S_ .f32 0x00000000#32))
    (broadcastInDim S3300000x1 ![0] bcast_S3300000_S3300000x1_0 d)
    (mulf (Host.gather gather_S100000x16_S3300000x1_S3300000x16_1_0_n_n_0_1_116 h (wrap s))
      (broadcastInDim S3300000x16 ![0, 1] bcast_S3300000x1_S3300000x16_0_1 (broadcastInDim S3300000x1 ![0] bcast_S3300000_S3300000x1_0 n)))

/-- A bias vector as a one-row table. -/
def asRow (b : (⟨S16, .f32⟩ : BufTy).Contents (Elt F)) : (⟨S1x16, .f32⟩ : BufTy).Contents (Elt F) :=
  broadcastInDim S1x16 ![1] bcast_S16_S1x16_1 b

/-- A node table plus the same row on every node. -/
def biased (y : (⟨S100000x16, .f32⟩ : BufTy).Contents (Elt F)) (row : (⟨S1x16, .f32⟩ : BufTy).Contents (Elt F)) :
    (⟨S100000x16, .f32⟩ : BufTy).Contents (Elt F) :=
  addf y (broadcastInDim S100000x16 ![0, 1] bcast_S1x16_S100000x16_0_1 row)

/-- max(y, 0), entry by entry. -/
def relu (y : (⟨S100000x16, .f32⟩ : BufTy).Contents (Elt F)) : (⟨S100000x16, .f32⟩ : BufTy).Contents (Elt F) :=
  maximumf y (broadcastInDim S100000x16 ![] bcast_S_S100000x16 (constant S_ .f32 0x00000000#32))

/-- z + ε · exp(z / 2), entry by entry. -/
def sample (z ep : (⟨S100000x16, .f32⟩ : BufTy).Contents (Elt F)) : (⟨S100000x16, .f32⟩ : BufTy).Contents (Elt F) :=
  addf z (mulf ep (Host.exp (mulf (broadcastInDim S100000x16 ![] bcast_S_S100000x16 (constant S_ .f32 0x3F000000#32)) z)))

/-- The first layer's linear map: node features (100 000 × 512) times W₁ (512 × 16). -/
def lin1 (x : (⟨S100000x512, .f32⟩ : BufTy).Contents (Elt F)) (w : (⟨S512x16, .f32⟩ : BufTy).Contents (Elt F)) :
    (⟨S100000x16, .f32⟩ : BufTy).Contents (Elt F) :=
  Host.dotGeneral dot_S100000x512_S512x16_S100000x16_1_0_0_1_n_n none x w

/-- The second layer's linear map: hidden features (100 000 × 16) times W₂ (16 × 16). -/
def lin2 (h : (⟨S100000x16, .f32⟩ : BufTy).Contents (Elt F)) (w : (⟨S16x16, .f32⟩ : BufTy).Contents (Elt F)) :
    (⟨S100000x16, .f32⟩ : BufTy).Contents (Elt F) :=
  Host.dotGeneral dot_S100000x16_S16x16_S100000x16_1_0_0_1_n_n none h w

/-- The encoder's result as a function of the arguments, the two bias rows given as one-row tables. -/
def encode (x : (⟨S100000x512, .f32⟩ : BufTy).Contents (Elt F)) (w1 : (⟨S512x16, .f32⟩ : BufTy).Contents (Elt F))
    (r1 : (⟨S1x16, .f32⟩ : BufTy).Contents (Elt F)) (w2 : (⟨S16x16, .f32⟩ : BufTy).Contents (Elt F))
    (r2 : (⟨S1x16, .f32⟩ : BufTy).Contents (Elt F)) (ep : (⟨S100000x16, .f32⟩ : BufTy).Contents (Elt F))
    (e : (⟨S2x3200000, .i32⟩ : BufTy).Contents (Elt F)) : (⟨S100000x16, .f32⟩ : BufTy).Contents (Elt F) :=
  sample (biased (agg (lin2 (relu (biased (agg (lin1 x w1) (src e) (dst e) (norm (src e) (dst e))) r1)) w2)
    (src e) (dst e) (norm (src e) (dst e))) r2) ep

end Cert.Spec

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.LibPlainHostDot.lean ====
/-
  The host's plain matrix product read at an entry.

  For the dimension numbers of an M×K operand times a K×N operand with no batch axis, the host's `dot_general` has, at
  entry (p, q), the value Σ_k lhs (p, k) · rhs (k, q) on the extended reals — the same sum a kernel's matrix product into
  the zero array has there. Generic in the three extents and the operands' float formats.
-/
import proofs.«122980_j48808008351905_1_alg».proof.Proof.LibPlainDot

namespace Idealize.ShloMosaic.PlainDot

open Idealize.ShloMosaic Idealize.ShloMosaic.ValueIdx

/-- The host's plain M×K by K×N product, at entry (p, q), is `Σ_k lhs (p, k) · rhs (k, q)`. -/
theorem hostDot_apply {φ₁ φ₂ : FTy} (M K N : Nat) (lhs : FVec Ideal ⟨2, ![M, K]⟩ φ₁) (rhs : FVec Ideal ⟨2, ![K, N]⟩ φ₂)
    (p : Fin M) (q : Fin N) :
    Host.dotGeneral (DotDims.plain M K N) none lhs rhs (ix2 p q) = ∑ k : Fin K, lhs (ix2 p k) * rhs (ix2 k q) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.Region0.lean ====
/-
  Region 0 (the first layer's linear map), as one function of the arrays it is entered with.

  Twenty-five blocks of 4 000 rows. At block `t` the body reads rows 4 000·t … 4 000·t + 3 999 of the feature table
  (512 columns) and the whole 512 × 16 weight matrix and stores their product. Entry (r, q) of the output is written
  once, by block r / 4 000, with Σ_k x (r, k) · W₁ (k, q): the output array ends as `Spec.lin1 x W₁`.
-/
import proofs.«122980_j48808008351905_1_alg».proof.Proof.Gen.KernelIdeal.Frame
import proofs.«122980_j48808008351905_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«122980_j48808008351905_1_alg».proof.Proof.LibPlainHostDot
set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of its block: row p of the loaded block times column q of the weights (the
    change of float format is the identity on the extended reals, the accumulator starts at zero). -/
theorem pay_apply (x0 : Vec Ideal S4000x512 .f32) (x1 : Vec Ideal S512x16 .f32) (p : Fin 4000) (q : Fin 16) :
    k0_pay1 x0 x1 (ix2 p q) = ∑ k : Fin 512, x0 (ix2 p k) * x1 (ix2 k q) := by
  unfold k0_pay1
  exact PlainDot.matmul_zero_apply 4000 512 16 (truncf .bf16 x0 bitsLt_bf16_f32) (truncf .bf16 x1 bitsLt_bf16_f32) p q

/-- The specification's piece at entry (r, q): row r of the table times column q of the weights. -/
theorem spec_apply (h : (⟨Cert.ReferenceIdeal.S100000x512, .f32⟩ : BufTy).Contents (Elt Ideal))
    (w : (⟨Cert.ReferenceIdeal.S512x16, .f32⟩ : BufTy).Contents (Elt Ideal)) (r : Fin 100000) (q : Fin 16) :
    Cert.Spec.lin1 h w (ix2 r q) = ∑ k : Fin 512, h (ix2 r k) * w (ix2 k q) := by
  unfold Cert.Spec.lin1
  exact PlainDot.hostDot_apply 100000 512 16 h w r q

/-- The printed index maps over the grid points: the table's window and the output's move together, block `t` at block
    row `t`; the weights' window stays at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

set_option maxHeartbeats 2000000 in
/-- What point `t` writes back is block `t` of the specification's piece of the arrays the region is entered with. -/
theorem flushed_eq (c : Dev nD) (t : Fin cfg0.N) :
    (dat0 V c).flushed 2 t = ((cfg0.win 2).blk t).view.read (Elt Ideal)
      (Cert.Spec.lin1 (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S4000x512) hz, View.ld_unit_zero (S := S512x16) hz]
  obtain ⟨e0, e1, e2, e3, e4, e5⟩ := idx_facts t
  have ht : t.val < 25 := t.isLt
  funext j
  obtain ⟨p, q, rfl⟩ : ∃ (p : Fin 4000) (q : Fin 16), j = ix2 p q := ⟨j 0, j 1, eq_ix2 j⟩
  have hp : p.val < 4000 := p.isLt
  have hq : q.val < 16 := q.isLt
  have hout : ((cfg0.win 2).blk t).view.emb (ix2 p q) = ix2 (⟨t.val * 4000 + p.val, by omega⟩ : Fin 100000) q := by
    funext a; apply Fin.ext
    match a with
    | ⟨0, _⟩ => show win0_2.index t (0 : Fin 2) * 4000 + 1 * p.val = t.val * 4000 + p.val; omega
    | ⟨1, _⟩ => show win0_2.index t (1 : Fin 2) * 16 + 1 * q.val = q.val; omega
  have hin : ∀ k : Fin 512, ((cfg0.win 0).blk t).view.emb (ix2 p k) = ix2 (⟨t.val * 4000 + p.val, by omega⟩ : Fin 100000) k := by
    intro k
    funext a; apply Fin.ext
    match a with
    | ⟨0, _⟩ => show win0_0.index t (0 : Fin 2) * 4000 + 1 * p.val = t.val * 4000 + p.val; omega
    | ⟨1, _⟩ => show win0_0.index t (1 : Fin 2) * 512 + 1 * k.val = k.val; omega
  have hw : ∀ k : Fin 512, ((cfg0.win 1).blk t).view.emb (ix2 k q) = ix2 k q := by
    intro k
    funext a; apply Fin.ext
    match a with
    | ⟨0, _⟩ => show win0_1.index t (0 : Fin 2) * 512 + 1 * k.val = k.val; omega
    | ⟨1, _⟩ => show win0_1.index t (1 : Fin 2) * 16 + 1 * q.val = q.val; omega
  show k0_pay1 (iblk0 V c 0 t) (iblk0 V c 1 t) (ix2 p q)
    = Cert.Spec.lin1 (V c (Pipeline.arrRef spec0 0)) (V c (Pipeline.arrRef spec0 1)) (((cfg0.win 2).blk t).view.emb (ix2 p q))
  rw [hout, spec_apply]
  refine (pay_apply (iblk0 V c 0 t) (iblk0 V c 1 t) p q).trans ?_
  refine Finset.sum_congr rfl fun k _ => ?_
  have h0 : iblk0 V c 0 t (ix2 p k) = V c (Pipeline.arrRef spec0 0) (ix2 (⟨t.val * 4000 + p.val, by omega⟩ : Fin 100000) k) := by
    show V c (Pipeline.arrRef spec0 0) (((cfg0.win 0).blk t).view.emb (ix2 p k)) = _
    rw [hin k]
  have h1 : iblk0 V c 1 t (ix2 k q) = V c (Pipeline.arrRef spec0 1) (ix2 k q) := by
    show V c (Pipeline.arrRef spec0 1) (((cfg0.win 1).blk t).view.emb (ix2 k q)) = _
    rw [hw k]
  rw [h0, h1]

/-- An index of the output array is in point `t`'s block iff each coordinate is in the block's range on its axis. -/
theorem mem_blk (t : Fin cfg0.N) (i : S100000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v27).slice (win0_2.rect t)).set ↔ _
  rw [View.set_slice_whole, Rect.mem_set_unit]
  exact Iff.rfl

/-- Every entry of the output array lies in the block of the point its row falls into. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  let t : Fin cfg0.N := ⟨(i 0).val / 4000, by show (i 0).val / 4000 < 25; omega⟩
  obtain ⟨e0, e1, e2, e3, e4, e5⟩ := idx_facts t
  have tv : t.val = (i 0).val / 4000 := rfl
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 16 ≤ (i 1).val ∧ (i 1).val < win0_2.index t (1 : Fin 2) * 16 + 16; omega

/-- THE REGION'S VALUE: after its twenty-five points the output array is the feature table times the weights it was entered with. -/
theorem value (c : Dev nD) :
    (dat0 V c).arrAt 2 cfg0.N = Cert.Spec.lin1 (V c (Pipeline.arrRef spec0 0)) (V c (Pipeline.arrRef spec0 1)) :=
  (dat0 V c).arrAt_eq_of_cover 2 _ (fun t _ => flushed_eq V c t) cover

end Cert.KernelIdeal.Region0

end
-- ==== Proof.Region1.lean ====
/-
  Region 1 (bias and relu), as one function of the arrays it is entered with.

  The region walks the 100 000 × 16 table in ten blocks of 10 000 rows. At block `t` the body reads rows
  10 000·t … 10 000·t + 9 999 of the table and the one bias row, and stores max(row + bias, 0). So entry (r, q) of the
  output is written exactly once, by block r / 10 000, with max(y (r, q) + bias (0, q), 0): the output array ends as
  `Spec.relu (Spec.biased y bias)` whatever it held before.
-/
import proofs.«122980_j48808008351905_1_alg».proof.Proof.Gen.KernelIdeal.Frame
import proofs.«122980_j48808008351905_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of its block: max(x (p, q) + bias (0, q), 0). -/
theorem pay_apply (x0 : Vec Ideal S10000x16 .f32) (x1 : Vec Ideal S1x16 .f32) (p : Fin 10000) (q : Fin 16) :
    k1_pay1 x0 x1 (ix2 p q) = max (x0 (ix2 p q) + x1 (ix2 (0 : Fin 1) q)) (Ideal.ofBits .f32 0x00000000#32) := by
  unfold k1_pay1
  rw [maximumf_apply, addf_apply, shapeCast_self, shapeCast_self, broadcastTo_1b_ab_apply]
  rfl

/-- The specification's piece at entry (r, q): max(y (r, q) + row (0, q), 0). -/
theorem spec_apply (y : (⟨Cert.ReferenceIdeal.S100000x16, .f32⟩ : BufTy).Contents (Elt Ideal))
    (row : (⟨Cert.ReferenceIdeal.S1x16, .f32⟩ : BufTy).Contents (Elt Ideal)) (r : Fin 100000) (q : Fin 16) :
    Cert.Spec.relu (Cert.Spec.biased y row) (ix2 r q) = max (y (ix2 r q) + row (ix2 (0 : Fin 1) q)) (Ideal.ofBits .f32 0x00000000#32) := by
  unfold Cert.Spec.relu Cert.Spec.biased
  rw [maximumf_apply, addf_apply,
    broadcastInDim_apply _ _ row (ix2 r q) (ix2 (0 : Fin 1) q) (fun a => by
      match a with
      | ⟨0, _⟩ => rfl
      | ⟨1, _⟩ => rfl)]
  rfl

/-- The printed index maps over the ten grid points: the table's window and the output's move together, block `t` at
    block row `t`; the bias row's window stays at its one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the specification's piece of the arrays the region is entered with. -/
theorem flushed_eq (c : Dev nD) (t : Fin cfg1.N) :
    (dat1 V c).flushed 2 t = ((cfg1.win 2).blk t).view.read (Elt Ideal)
      (Cert.Spec.relu (Cert.Spec.biased (V c (Pipeline.arrRef spec1 0)) (V c (Pipeline.arrRef spec1 1)))) := by
  show (cfg1.win 2).cut (grid1.coords t) ((dat1 V c).after 2 t) = _
  rw [after1_2]
  unfold out1_2
  rw [View.canon_unit_zero hz]
  simp only [View.ld_unit_zero (S := S10000x16) hz, View.ld_unit_zero (S := S1x16) hz]
  obtain ⟨e0, e1, e2, e3, e4, e5⟩ := idx_facts t
  have ht : t.val < 10 := t.isLt
  funext j
  obtain ⟨p, q, rfl⟩ : ∃ (p : Fin 10000) (q : Fin 16), j = ix2 p q := ⟨j 0, j 1, eq_ix2 j⟩
  have hp : p.val < 10000 := p.isLt
  have hq : q.val < 16 := q.isLt
  have hout : ((cfg1.win 2).blk t).view.emb (ix2 p q) = ix2 (⟨t.val * 10000 + p.val, by omega⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 16 + 1 * q.val = q.val; omega
  have hin : ((cfg1.win 0).blk t).view.emb (ix2 p q) = ix2 (⟨t.val * 10000 + p.val, by omega⟩ : Fin 100000) q := by
    funext a; apply Fin.ext
    match a with
    | ⟨0, _⟩ => show win1_0.index t (0 : Fin 2) * 10000 + 1 * p.val = t.val * 10000 + p.val; omega
    | ⟨1, _⟩ => show win1_0.index t (1 : Fin 2) * 16 + 1 * q.val = q.val; omega
  have hrow : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 16 + 1 * q.val = q.val; omega
  show k1_pay1 (iblk1 V c 0 t) (iblk1 V c 1 t) (ix2 p q)
    = Cert.Spec.relu (Cert.Spec.biased (V c (Pipeline.arrRef spec1 0)) (V c (Pipeline.arrRef spec1 1))) (((cfg1.win 2).blk t).view.emb (ix2 p q))
  rw [hout, spec_apply]
  refine (pay_apply (iblk1 V c 0 t) (iblk1 V c 1 t) p q).trans ?_
  have h0 : iblk1 V c 0 t (ix2 p q) = V c (Pipeline.arrRef spec1 0) (ix2 (⟨t.val * 10000 + p.val, by omega⟩ : Fin 100000) q) := by
    show V c (Pipeline.arrRef spec1 0) (((cfg1.win 0).blk t).view.emb (ix2 p q)) = _
    rw [hin]
  have h1 : iblk1 V c 1 t (ix2 (0 : Fin 1) q) = V c (Pipeline.arrRef spec1 1) (ix2 (0 : Fin 1) q) := by
    show V c (Pipeline.arrRef spec1 1) (((cfg1.win 1).blk t).view.emb (ix2 (0 : Fin 1) q)) = _
    rw [hrow]
  rw [h0, h1]

/-- An index of the output array is in point `t`'s block iff each coordinate is in the block's range on its axis. -/
theorem mem_blk (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v42).slice (win1_2.rect t)).set ↔ _
  rw [View.set_slice_whole, Rect.mem_set_unit]
  exact Iff.rfl

/-- Every entry of the output array lies in the block of the point its row falls into. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  let t : Fin cfg1.N := ⟨(i 0).val / 10000, by show (i 0).val / 10000 < 10; omega⟩
  obtain ⟨e0, e1, e2, e3, e4, e5⟩ := idx_facts t
  have tv : t.val = (i 0).val / 10000 := rfl
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 16 ≤ (i 1).val ∧ (i 1).val < win1_2.index t (1 : Fin 2) * 16 + 16; omega

/-- THE REGION'S VALUE: after its ten points the output array is relu (table + bias row) of the arrays it was entered with. -/
theorem value (c : Dev nD) :
    (dat1 V c).arrAt 2 cfg1.N
      = Cert.Spec.relu (Cert.Spec.biased (V c (Pipeline.arrRef spec1 0)) (V c (Pipeline.arrRef spec1 1))) :=
  (dat1 V c).arrAt_eq_of_cover 2 _ (fun t _ => flushed_eq V c t) cover

end Cert.KernelIdeal.Region1

end
-- ==== Proof.Region2.lean ====
/-
  Region 2 (the second layer's linear map), as one function of the arrays it is entered with.

  Ten blocks of 10 000 rows. At block `t` the body reads rows 10 000·t … 10 000·t + 9 999 of the hidden table and the
  whole 16 × 16 weight matrix and stores their product. Entry (r, q) of the output is written once, by block
  r / 10 000, with Σ_k h (r, k) · W₂ (k, q): the output array ends as `Spec.lin2 h W₂`.
-/
import proofs.«122980_j48808008351905_1_alg».proof.Proof.Gen.KernelIdeal.Frame
import proofs.«122980_j48808008351905_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«122980_j48808008351905_1_alg».proof.Proof.LibPlainHostDot
set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of its block: row p of the loaded block times column q of the weights (the
    change of float format is the identity on the extended reals, the accumulator starts at zero). -/
theorem pay_apply (x0 : Vec Ideal S10000x16 .f32) (x1 : Vec Ideal S16x16 .f32) (p : Fin 10000) (q : Fin 16) :
    k2_pay1 x0 x1 (ix2 p q) = ∑ k : Fin 16, x0 (ix2 p k) * x1 (ix2 k q) := by
  unfold k2_pay1
  rw [shapeCast_self]
  exact PlainDot.matmul_zero_apply 10000 16 16 (truncf .bf16 x0 bitsLt_bf16_f32) (truncf .bf16 x1 bitsLt_bf16_f32) p q

/-- The specification's piece at entry (r, q): row r of the table times column q of the weights. -/
theorem spec_apply (h : (⟨Cert.ReferenceIdeal.S100000x16, .f32⟩ : BufTy).Contents (Elt Ideal))
    (w : (⟨Cert.ReferenceIdeal.S16x16, .f32⟩ : BufTy).Contents (Elt Ideal)) (r : Fin 100000) (q : Fin 16) :
    Cert.Spec.lin2 h w (ix2 r q) = ∑ k : Fin 16, h (ix2 r k) * w (ix2 k q) := by
  unfold Cert.Spec.lin2
  exact PlainDot.hostDot_apply 100000 16 16 h w r q

/-- The printed index maps over the grid points: the table's window and the output's move together, block `t` at block
    row `t`; the weights' window stays at its one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

set_option maxHeartbeats 2000000 in
/-- What point `t` writes back is block `t` of the specification's piece of the arrays the region is entered with. -/
theorem flushed_eq (c : Dev nD) (t : Fin cfg2.N) :
    (dat2 V c).flushed 2 t = ((cfg2.win 2).blk t).view.read (Elt Ideal)
      (Cert.Spec.lin2 (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S10000x16) hz, View.ld_unit_zero (S := S16x16) hz]
  obtain ⟨e0, e1, e2, e3, e4, e5⟩ := idx_facts t
  have ht : t.val < 10 := t.isLt
  funext j
  obtain ⟨p, q, rfl⟩ : ∃ (p : Fin 10000) (q : Fin 16), j = ix2 p q := ⟨j 0, j 1, eq_ix2 j⟩
  have hp : p.val < 10000 := p.isLt
  have hq : q.val < 16 := q.isLt
  have hout : ((cfg2.win 2).blk t).view.emb (ix2 p q) = ix2 (⟨t.val * 10000 + p.val, by omega⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 16 + 1 * q.val = q.val; omega
  have hin : ∀ k : Fin 16, ((cfg2.win 0).blk t).view.emb (ix2 p k) = ix2 (⟨t.val * 10000 + p.val, by omega⟩ : Fin 100000) k := by
    intro k
    funext a; apply Fin.ext
    match a with
    | ⟨0, _⟩ => show win2_0.index t (0 : Fin 2) * 10000 + 1 * p.val = t.val * 10000 + p.val; omega
    | ⟨1, _⟩ => show win2_0.index t (1 : Fin 2) * 16 + 1 * k.val = k.val; omega
  have hw : ∀ k : Fin 16, ((cfg2.win 1).blk t).view.emb (ix2 k q) = ix2 k q := by
    intro k
    funext a; apply Fin.ext
    match a with
    | ⟨0, _⟩ => show win2_1.index t (0 : Fin 2) * 16 + 1 * k.val = k.val; omega
    | ⟨1, _⟩ => show win2_1.index t (1 : Fin 2) * 16 + 1 * q.val = q.val; omega
  show k2_pay1 (iblk2 V c 0 t) (iblk2 V c 1 t) (ix2 p q)
    = Cert.Spec.lin2 (V c (Pipeline.arrRef spec2 0)) (V c (Pipeline.arrRef spec2 1)) (((cfg2.win 2).blk t).view.emb (ix2 p q))
  rw [hout, spec_apply]
  refine (pay_apply (iblk2 V c 0 t) (iblk2 V c 1 t) p q).trans ?_
  refine Finset.sum_congr rfl fun k _ => ?_
  have h0 : iblk2 V c 0 t (ix2 p k) = V c (Pipeline.arrRef spec2 0) (ix2 (⟨t.val * 10000 + p.val, by omega⟩ : Fin 100000) k) := by
    show V c (Pipeline.arrRef spec2 0) (((cfg2.win 0).blk t).view.emb (ix2 p k)) = _
    rw [hin k]
  have h1 : iblk2 V c 1 t (ix2 k q) = V c (Pipeline.arrRef spec2 1) (ix2 k q) := by
    show V c (Pipeline.arrRef spec2 1) (((cfg2.win 1).blk t).view.emb (ix2 k q)) = _
    rw [hw k]
  rw [h0, h1]

/-- An index of the output array is in point `t`'s block iff each coordinate is in the block's range on its axis. -/
theorem mem_blk (t : Fin cfg2.N) (i : S100000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v43).slice (win2_2.rect t)).set ↔ _
  rw [View.set_slice_whole, Rect.mem_set_unit]
  exact Iff.rfl

/-- Every entry of the output array lies in the block of the point its row falls into. -/
theorem cover (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  let t : Fin cfg2.N := ⟨(i 0).val / 10000, by show (i 0).val / 10000 < 10; omega⟩
  obtain ⟨e0, e1, e2, e3, e4, e5⟩ := idx_facts t
  have tv : t.val = (i 0).val / 10000 := rfl
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 16 ≤ (i 1).val ∧ (i 1).val < win2_2.index t (1 : Fin 2) * 16 + 16; omega

/-- THE REGION'S VALUE: after its ten points the output array is the hidden table times the weights it was entered with. -/
theorem value (c : Dev nD) :
    (dat2 V c).arrAt 2 cfg2.N = Cert.Spec.lin2 (V c (Pipeline.arrRef spec2 0)) (V c (Pipeline.arrRef spec2 1)) :=
  (dat2 V c).arrAt_eq_of_cover 2 _ (fun t _ => flushed_eq V c t) cover

end Cert.KernelIdeal.Region2

end
-- ==== Proof.Region3.lean ====
/-
  Region 3 (bias and the reparameterised sample), as one function of the arrays it is entered with.

  Ten blocks of 10 000 rows again. At block `t` the body reads the same rows of the aggregated table and of the noise
  table ε, and the one bias row; with z = row + bias it stores z + ε · exp (z / 2). Entry (r, q) of the output is
  written once, by block r / 10 000, so the output array ends as `Spec.sample (Spec.biased y bias) ε`.
-/
import proofs.«122980_j48808008351905_1_alg».proof.Proof.Gen.KernelIdeal.Frame
import proofs.«122980_j48808008351905_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of its block: with z = x (p, q) + bias (0, q), z + ε (p, q) · exp (z / 2). -/
theorem pay_apply (x0 : Vec Ideal S10000x16 .f32) (x1 : Vec Ideal S1x16 .f32) (x2 : Vec Ideal S10000x16 .f32) (p : Fin 10000) (q : Fin 16) :
    k3_pay1 x0 x1 x2 (ix2 p q)
      = (x0 (ix2 p q) + x1 (ix2 (0 : Fin 1) q))
        + x2 (ix2 p q) * Ideal.exp (Ideal.ofBits .f32 0x3F000000#32 * (x0 (ix2 p q) + x1 (ix2 (0 : Fin 1) q))) := by
  unfold k3_pay1 exp
  simp only [addf_apply, mulf_apply, shapeCast_self, broadcastTo_1b_ab_apply]
  rfl

/-- The specification's piece at entry (r, q), in the same form. -/
theorem spec_apply (y : (⟨Cert.ReferenceIdeal.S100000x16, .f32⟩ : BufTy).Contents (Elt Ideal))
    (row : (⟨Cert.ReferenceIdeal.S1x16, .f32⟩ : BufTy).Contents (Elt Ideal))
    (ep : (⟨Cert.ReferenceIdeal.S100000x16, .f32⟩ : BufTy).Contents (Elt Ideal)) (r : Fin 100000) (q : Fin 16) :
    Cert.Spec.sample (Cert.Spec.biased y row) ep (ix2 r q)
      = (y (ix2 r q) + row (ix2 (0 : Fin 1) q))
        + ep (ix2 r q) * Ideal.exp (Ideal.ofBits .f32 0x3F000000#32 * (y (ix2 r q) + row (ix2 (0 : Fin 1) q))) := by
  unfold Cert.Spec.sample Cert.Spec.biased Host.exp
  simp only [addf_apply, mulf_apply]
  rw [broadcastInDim_apply _ _ row (ix2 r q) (ix2 (0 : Fin 1) q) (fun a => by
      match a with
      | ⟨0, _⟩ => rfl
      | ⟨1, _⟩ => rfl)]
  rfl

/-- The printed index maps over the ten grid points: the table's, the noise's and the output's windows move together,
    block `t` at block row `t`; the bias row's window stays at its one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

set_option maxHeartbeats 2000000 in
/-- What point `t` writes back is block `t` of the specification's piece of the arrays the region is entered with. -/
theorem flushed_eq (c : Dev nD) (t : Fin cfg3.N) :
    (dat3 V c).flushed 3 t = ((cfg3.win 3).blk t).view.read (Elt Ideal)
      (Cert.Spec.sample (Cert.Spec.biased (V c (Pipeline.arrRef spec3 0)) (V c (Pipeline.arrRef spec3 1))) (V c (Pipeline.arrRef spec3 2))) := by
  show (cfg3.win 3).cut (grid3.coords t) ((dat3 V c).after 3 t) = _
  rw [after3_3]
  unfold out3_3
  rw [View.canon_unit_zero hz]
  simp only [View.ld_unit_zero (S := S10000x16) hz, View.ld_unit_zero (S := S1x16) hz]
  obtain ⟨e0, e1, e2, e3, e4, e5, e6, e7⟩ := idx_facts t
  have ht : t.val < 10 := t.isLt
  funext j
  obtain ⟨p, q, rfl⟩ : ∃ (p : Fin 10000) (q : Fin 16), j = ix2 p q := ⟨j 0, j 1, eq_ix2 j⟩
  have hp : p.val < 10000 := p.isLt
  have hq : q.val < 16 := q.isLt
  have hout : ((cfg3.win 3).blk t).view.emb (ix2 p q) = ix2 (⟨t.val * 10000 + p.val, by omega⟩ : Fin 100000) q := by
    funext a; apply Fin.ext
    match a with
    | ⟨0, _⟩ => show win3_3.index t (0 : Fin 2) * 10000 + 1 * p.val = t.val * 10000 + p.val; omega
    | ⟨1, _⟩ => show win3_3.index t (1 : Fin 2) * 16 + 1 * q.val = q.val; omega
  have hin : ((cfg3.win 0).blk t).view.emb (ix2 p q) = ix2 (⟨t.val * 10000 + p.val, by omega⟩ : Fin 100000) q := by
    funext a; apply Fin.ext
    match a with
    | ⟨0, _⟩ => show win3_0.index t (0 : Fin 2) * 10000 + 1 * p.val = t.val * 10000 + p.val; omega
    | ⟨1, _⟩ => show win3_0.index t (1 : Fin 2) * 16 + 1 * q.val = q.val; omega
  have heps : ((cfg3.win 2).blk t).view.emb (ix2 p q) = ix2 (⟨t.val * 10000 + p.val, by omega⟩ : Fin 100000) q := by
    funext a; apply Fin.ext
    match a with
    | ⟨0, _⟩ => show win3_2.index t (0 : Fin 2) * 10000 + 1 * p.val = t.val * 10000 + p.val; omega
    | ⟨1, _⟩ => show win3_2.index t (1 : Fin 2) * 16 + 1 * q.val = q.val; omega
  have hrow : ((cfg3.win 1).blk t).view.emb (ix2 (0 : Fin 1) q) = ix2 (0 : Fin 1) q := by
    funext a; apply Fin.ext
    match a with
    | ⟨0, _⟩ => show win3_1.index t (0 : Fin 2) * 1 + 1 * 0 = 0; omega
    | ⟨1, _⟩ => show win3_1.index t (1 : Fin 2) * 16 + 1 * q.val = q.val; omega
  show k3_pay1 (iblk3 V c 0 t) (iblk3 V c 1 t) (iblk3 V c 2 t) (ix2 p q)
    = Cert.Spec.sample (Cert.Spec.biased (V c (Pipeline.arrRef spec3 0)) (V c (Pipeline.arrRef spec3 1))) (V c (Pipeline.arrRef spec3 2))
        (((cfg3.win 3).blk t).view.emb (ix2 p q))
  rw [hout, spec_apply]
  refine (pay_apply (iblk3 V c 0 t) (iblk3 V c 1 t) (iblk3 V c 2 t) p q).trans ?_
  have h0 : iblk3 V c 0 t (ix2 p q) = V c (Pipeline.arrRef spec3 0) (ix2 (⟨t.val * 10000 + p.val, by omega⟩ : Fin 100000) q) := by
    show V c (Pipeline.arrRef spec3 0) (((cfg3.win 0).blk t).view.emb (ix2 p q)) = _
    rw [hin]
  have h1 : iblk3 V c 1 t (ix2 (0 : Fin 1) q) = V c (Pipeline.arrRef spec3 1) (ix2 (0 : Fin 1) q) := by
    show V c (Pipeline.arrRef spec3 1) (((cfg3.win 1).blk t).view.emb (ix2 (0 : Fin 1) q)) = _
    rw [hrow]
  have h2 : iblk3 V c 2 t (ix2 p q) = V c (Pipeline.arrRef spec3 2) (ix2 (⟨t.val * 10000 + p.val, by omega⟩ : Fin 100000) q) := by
    show V c (Pipeline.arrRef spec3 2) (((cfg3.win 2).blk t).view.emb (ix2 p q)) = _
    rw [heps]
  rw [h0, h1, h2]

/-- An index of the output array is in point `t`'s block iff each coordinate is in the block's range on its axis. -/
theorem mem_blk (t : Fin cfg3.N) (i : S100000x16.Idx) :
    i ∈ ((cfg3.win 3).blk t).view.set ↔ ∀ a : Fin 2, win3_3.index t a * S10000x16.size a ≤ (i a).val ∧ (i a).val < win3_3.index t a * S10000x16.size a + S10000x16.size a := by
  show i ∈ ((View.whole main_v58).slice (win3_3.rect t)).set ↔ _
  rw [View.set_slice_whole, Rect.mem_set_unit]
  exact Iff.rfl

/-- Every entry of the output array lies in the block of the point its row falls into. -/
theorem cover (i : S100000x16.Idx) : ∃ t : Fin cfg3.N, (cfg3.win 3).flush t = true ∧ i ∈ ((cfg3.win 3).blk t).view.set := by
  have hi0 : (i 0).val < 100000 := (i 0).isLt
  have hi1 : (i 1).val < 16 := (i 1).isLt
  let t : Fin cfg3.N := ⟨(i 0).val / 10000, by show (i 0).val / 10000 < 10; omega⟩
  obtain ⟨e0, e1, e2, e3, e4, e5, e6, e7⟩ := idx_facts t
  have tv : t.val = (i 0).val / 10000 := rfl
  refine ⟨t, flush3_3 t, ?_⟩
  rw [mem_blk]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 16 ≤ (i 1).val ∧ (i 1).val < win3_3.index t (1 : Fin 2) * 16 + 16; omega

/-- THE REGION'S VALUE: after its ten points the output array is the sample of (table + bias row) and the noise it was
    entered with. -/
theorem value (c : Dev nD) :
    (dat3 V c).arrAt 3 cfg3.N
      = Cert.Spec.sample (Cert.Spec.biased (V c (Pipeline.arrRef spec3 0)) (V c (Pipeline.arrRef spec3 1))) (V c (Pipeline.arrRef spec3 2)) :=
  (dat3 V c).arrAt_eq_of_cover 3 _ (fun t _ => flushed_eq V c t) cover

end Cert.KernelIdeal.Region3

end
-- ==== Proof.Walk.lean ====
/-
  The idealized kernel program's result, followed through its run.

  The run is a fold over seven boundaries: a host stretch (the edge lists, the degrees, the edge weights), region 0
  (x · W₁), a host stretch (the first propagation; the bias as a row), region 1 (+ b₁, relu), region 2 (· W₂), a host
  stretch (the second propagation; the bias as a row), region 3 (+ b₂, the sample). At each boundary the arrays that a
  later stretch or region reads hold a named piece of the encoder:
    after stretch 0: sources, destinations, edge weights;      after region 0: h₀ = x · W₁;
    after stretch 1: conv₁ = agg h₀, row₁ = b₁ as a row;         after region 1: z₁ = relu (conv₁ + row₁);
    after region 2:  h₁ = z₁ · W₂;                              after stretch 2: conv₂ = agg h₁, row₂ = b₂ as a row;
    after region 3:  the result, sample (conv₂ + row₂) ε.
  A stretch's result is read off its operations; a region's is its value lemma at the arrays the boundary before it
  holds; everything else is carried: a region leaves alone every array that is not one of its windows', a stretch
  every array none of its operations writes.
-/
import proofs.«122980_j48808008351905_1_alg».proof.Proof.Region0
import proofs.«122980_j48808008351905_1_alg».proof.Proof.Region1
import proofs.«122980_j48808008351905_1_alg».proof.Proof.Region2
import proofs.«122980_j48808008351905_1_alg».proof.Proof.Region3
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- A stretch keeps a buffer none of its operations writes. -/
local macro "stretch_keeps " ops:ident b:ident : tactic => `(tactic| (
  refine StableHlo.after_of_forall_not_mem (b := Proc.devRef .tc $b) _ _ (List.forall_iff_forall_mem.mp ?_)
  simp only [$ops:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-! ## The pieces, as functions of the launch contents of the arguments -/

abbrev srcs (c : Dev nD) := Cert.Spec.src (m ((c : Thread nD τ).loc main_arg6))
abbrev dsts (c : Dev nD) := Cert.Spec.dst (m ((c : Thread nD τ).loc main_arg6))
abbrev wts (c : Dev nD) := Cert.Spec.norm (srcs m c) (dsts m c)
abbrev h0 (c : Dev nD) := Cert.Spec.lin1 (m ((c : Thread nD τ).loc main_arg0)) (m ((c : Thread nD τ).loc main_arg1))
abbrev conv1 (c : Dev nD) := Cert.Spec.agg (h0 m c) (srcs m c) (dsts m c) (wts m c)
abbrev row1 (c : Dev nD) : (⟨Cert.ReferenceIdeal.S1x16, .f32⟩ : BufTy).Contents (Elt Ideal) :=
  shapeCast _ (m ((c : Thread nD τ).loc main_arg2)) shapeCasts_S16_S1x16
abbrev z1 (c : Dev nD) := Cert.Spec.relu (Cert.Spec.biased (conv1 m c) (row1 m c))
abbrev h1 (c : Dev nD) := Cert.Spec.lin2 (z1 m c) (m ((c : Thread nD τ).loc main_arg3))
abbrev conv2 (c : Dev nD) := Cert.Spec.agg (h1 m c) (srcs m c) (dsts m c) (wts m c)
abbrev row2 (c : Dev nD) : (⟨Cert.ReferenceIdeal.S1x16, .f32⟩ : BufTy).Contents (Elt Ideal) :=
  shapeCast _ (m ((c : Thread nD τ).loc main_arg4)) shapeCasts_S16_S1x16
abbrev result (c : Dev nD) := Cert.Spec.sample (Cert.Spec.biased (conv2 m c) (row2 m c)) (m ((c : Thread nD τ).loc main_arg5))

/-! ## After the first host stretch -/

theorem at1_srcs (c : Dev nD) : W1 m ρ c (Proc.devRef .tc main_v3) = srcs m c := by
  show StableHlo.after hostOps0 (W0 m ρ c) (Proc.devRef .tc main_v3) = _
  after_results_simp <;> rfl
theorem at1_dsts (c : Dev nD) : W1 m ρ c (Proc.devRef .tc main_v6) = dsts m c := by
  show StableHlo.after hostOps0 (W0 m ρ c) (Proc.devRef .tc main_v6) = _
  after_results_simp <;> rfl
theorem at1_wts (c : Dev nD) : W1 m ρ c (Proc.devRef .tc main_v26) = wts m c := by
  show StableHlo.after hostOps0 (W0 m ρ c) (Proc.devRef .tc main_v26) = _
  after_results_simp <;> rfl
theorem at1_arg0 (c : Dev nD) : W1 m ρ c (Proc.devRef .tc main_arg0) = m ((c : Thread nD τ).loc main_arg0) :=
  (show W1 m ρ c (Proc.devRef .tc main_arg0) = W0 m ρ c (Proc.devRef .tc main_arg0) by stretch_keeps hostOps0 main_arg0).trans rfl
theorem at1_arg1 (c : Dev nD) : W1 m ρ c (Proc.devRef .tc main_arg1) = m ((c : Thread nD τ).loc main_arg1) :=
  (show W1 m ρ c (Proc.devRef .tc main_arg1) = W0 m ρ c (Proc.devRef .tc main_arg1) by stretch_keeps hostOps0 main_arg1).trans rfl
theorem at1_arg2 (c : Dev nD) : W1 m ρ c (Proc.devRef .tc main_arg2) = m ((c : Thread nD τ).loc main_arg2) :=
  (show W1 m ρ c (Proc.devRef .tc main_arg2) = W0 m ρ c (Proc.devRef .tc main_arg2) by stretch_keeps hostOps0 main_arg2).trans rfl
theorem at1_arg3 (c : Dev nD) : W1 m ρ c (Proc.devRef .tc main_arg3) = m ((c : Thread nD τ).loc main_arg3) :=
  (show W1 m ρ c (Proc.devRef .tc main_arg3) = W0 m ρ c (Proc.devRef .tc main_arg3) by stretch_keeps hostOps0 main_arg3).trans rfl
theorem at1_arg4 (c : Dev nD) : W1 m ρ c (Proc.devRef .tc main_arg4) = m ((c : Thread nD τ).loc main_arg4) :=
  (show W1 m ρ c (Proc.devRef .tc main_arg4) = W0 m ρ c (Proc.devRef .tc main_arg4) by stretch_keeps hostOps0 main_arg4).trans rfl
theorem at1_arg5 (c : Dev nD) : W1 m ρ c (Proc.devRef .tc main_arg5) = m ((c : Thread nD τ).loc main_arg5) :=
  (show W1 m ρ c (Proc.devRef .tc main_arg5) = W0 m ρ c (Proc.devRef .tc main_arg5) by stretch_keeps hostOps0 main_arg5).trans rfl

/-! ## After region 0 -/

theorem at2_h0 (c : Dev nD) : W2 m ρ c (Proc.devRef .tc main_v27) = h0 m c :=
  (W2_arr m ρ c 2).trans ((Region0.value (V1 m ρ) c).trans (by
    rw [show V1 m ρ c (Pipeline.arrRef spec0 0) = _ from at1_arg0 m ρ c, show V1 m ρ c (Pipeline.arrRef spec0 1) = _ from at1_arg1 m ρ c]))
theorem at2_srcs (c : Dev nD) : W2 m ρ c (Proc.devRef .tc main_v3) = srcs m c := (W2_of_ne m ρ c main_v3 (by decide)).trans (at1_srcs m ρ c)
theorem at2_dsts (c : Dev nD) : W2 m ρ c (Proc.devRef .tc main_v6) = dsts m c := (W2_of_ne m ρ c main_v6 (by decide)).trans (at1_dsts m ρ c)
theorem at2_wts (c : Dev nD) : W2 m ρ c (Proc.devRef .tc main_v26) = wts m c := (W2_of_ne m ρ c main_v26 (by decide)).trans (at1_wts m ρ c)
theorem at2_arg2 (c : Dev nD) : W2 m ρ c (Proc.devRef .tc main_arg2) = m ((c : Thread nD τ).loc main_arg2) := (W2_of_ne m ρ c main_arg2 (by decide)).trans (at1_arg2 m ρ c)
theorem at2_arg3 (c : Dev nD) : W2 m ρ c (Proc.devRef .tc main_arg3) = m ((c : Thread nD τ).loc main_arg3) := (W2_of_ne m ρ c main_arg3 (by decide)).trans (at1_arg3 m ρ c)
theorem at2_arg4 (c : Dev nD) : W2 m ρ c (Proc.devRef .tc main_arg4) = m ((c : Thread nD τ).loc main_arg4) := (W2_of_ne m ρ c main_arg4 (by decide)).trans (at1_arg4 m ρ c)
theorem at2_arg5 (c : Dev nD) : W2 m ρ c (Proc.devRef .tc main_arg5) = m ((c : Thread nD τ).loc main_arg5) := (W2_of_ne m ρ c main_arg5 (by decide)).trans (at1_arg5 m ρ c)

/-! ## After the second host stretch -/

theorem at3_conv1 (c : Dev nD) : W3 m ρ c (Proc.devRef .tc main_v40) = conv1 m c := by
  have e : W3 m ρ c (Proc.devRef .tc main_v40) = Cert.Spec.agg (W2 m ρ c (Proc.devRef .tc main_v27)) (W2 m ρ c (Proc.devRef .tc main_v3))
      (W2 m ρ c (Proc.devRef .tc main_v6)) (W2 m ρ c (Proc.devRef .tc main_v26)) := by
    show StableHlo.after hostOps1 (W2 m ρ c) (Proc.devRef .tc main_v40) = _
    after_results_simp <;> rfl
  rw [e, at2_h0, at2_srcs, at2_dsts, at2_wts]
theorem at3_row1 (c : Dev nD) : W3 m ρ c (Proc.devRef .tc main_v41) = row1 m c := by
  have e : W3 m ρ c (Proc.devRef .tc main_v41) = shapeCast _ (W2 m ρ c (Proc.devRef .tc main_arg2)) shapeCasts_S16_S1x16 := by
    show StableHlo.after hostOps1 (W2 m ρ c) (Proc.devRef .tc main_v41) = _
    after_results_simp <;> rfl
  rw [e, at2_arg2]
theorem at3_srcs (c : Dev nD) : W3 m ρ c (Proc.devRef .tc main_v3) = srcs m c :=
  (show W3 m ρ c (Proc.devRef .tc main_v3) = W2 m ρ c (Proc.devRef .tc main_v3) by stretch_keeps hostOps1 main_v3).trans (at2_srcs m ρ c)
theorem at3_dsts (c : Dev nD) : W3 m ρ c (Proc.devRef .tc main_v6) = dsts m c :=
  (show W3 m ρ c (Proc.devRef .tc main_v6) = W2 m ρ c (Proc.devRef .tc main_v6) by stretch_keeps hostOps1 main_v6).trans (at2_dsts m ρ c)
theorem at3_wts (c : Dev nD) : W3 m ρ c (Proc.devRef .tc main_v26) = wts m c :=
  (show W3 m ρ c (Proc.devRef .tc main_v26) = W2 m ρ c (Proc.devRef .tc main_v26) by stretch_keeps hostOps1 main_v26).trans (at2_wts m ρ c)
theorem at3_arg3 (c : Dev nD) : W3 m ρ c (Proc.devRef .tc main_arg3) = m ((c : Thread nD τ).loc main_arg3) :=
  (show W3 m ρ c (Proc.devRef .tc main_arg3) = W2 m ρ c (Proc.devRef .tc main_arg3) by stretch_keeps hostOps1 main_arg3).trans (at2_arg3 m ρ c)
theorem at3_arg4 (c : Dev nD) : W3 m ρ c (Proc.devRef .tc main_arg4) = m ((c : Thread nD τ).loc main_arg4) :=
  (show W3 m ρ c (Proc.devRef .tc main_arg4) = W2 m ρ c (Proc.devRef .tc main_arg4) by stretch_keeps hostOps1 main_arg4).trans (at2_arg4 m ρ c)
theorem at3_arg5 (c : Dev nD) : W3 m ρ c (Proc.devRef .tc main_arg5) = m ((c : Thread nD τ).loc main_arg5) :=
  (show W3 m ρ c (Proc.devRef .tc main_arg5) = W2 m ρ c (Proc.devRef .tc main_arg5) by stretch_keeps hostOps1 main_arg5).trans (at2_arg5 m ρ c)

/-! ## After region 1 -/

theorem at4_z1 (c : Dev nD) : W4 m ρ c (Proc.devRef .tc main_v42) = z1 m c :=
  (W4_arr m ρ c 2).trans ((Region1.value (V3 m ρ) c).trans (by
    rw [show V3 m ρ c (Pipeline.arrRef spec1 0) = _ from at3_conv1 m ρ c, show V3 m ρ c (Pipeline.arrRef spec1 1) = _ from at3_row1 m ρ c]))
theorem at4_srcs (c : Dev nD) : W4 m ρ c (Proc.devRef .tc main_v3) = srcs m c := (W4_of_ne m ρ c main_v3 (by decide)).trans (at3_srcs m ρ c)
theorem at4_dsts (c : Dev nD) : W4 m ρ c (Proc.devRef .tc main_v6) = dsts m c := (W4_of_ne m ρ c main_v6 (by decide)).trans (at3_dsts m ρ c)
theorem at4_wts (c : Dev nD) : W4 m ρ c (Proc.devRef .tc main_v26) = wts m c := (W4_of_ne m ρ c main_v26 (by decide)).trans (at3_wts m ρ c)
theorem at4_arg3 (c : Dev nD) : W4 m ρ c (Proc.devRef .tc main_arg3) = m ((c : Thread nD τ).loc main_arg3) := (W4_of_ne m ρ c main_arg3 (by decide)).trans (at3_arg3 m ρ c)
theorem at4_arg4 (c : Dev nD) : W4 m ρ c (Proc.devRef .tc main_arg4) = m ((c : Thread nD τ).loc main_arg4) := (W4_of_ne m ρ c main_arg4 (by decide)).trans (at3_arg4 m ρ c)
theorem at4_arg5 (c : Dev nD) : W4 m ρ c (Proc.devRef .tc main_arg5) = m ((c : Thread nD τ).loc main_arg5) := (W4_of_ne m ρ c main_arg5 (by decide)).trans (at3_arg5 m ρ c)

/-! ## After region 2 -/

theorem at5_h1 (c : Dev nD) : W5 m ρ c (Proc.devRef .tc main_v43) = h1 m c :=
  (W5_arr m ρ c 2).trans ((Region2.value (V4 m ρ) c).trans (by
    rw [show V4 m ρ c (Pipeline.arrRef spec2 0) = _ from at4_z1 m ρ c, show V4 m ρ c (Pipeline.arrRef spec2 1) = _ from at4_arg3 m ρ c]))
theorem at5_srcs (c : Dev nD) : W5 m ρ c (Proc.devRef .tc main_v3) = srcs m c := (W5_of_ne m ρ c main_v3 (by decide)).trans (at4_srcs m ρ c)
theorem at5_dsts (c : Dev nD) : W5 m ρ c (Proc.devRef .tc main_v6) = dsts m c := (W5_of_ne m ρ c main_v6 (by decide)).trans (at4_dsts m ρ c)
theorem at5_wts (c : Dev nD) : W5 m ρ c (Proc.devRef .tc main_v26) = wts m c := (W5_of_ne m ρ c main_v26 (by decide)).trans (at4_wts m ρ c)
theorem at5_arg4 (c : Dev nD) : W5 m ρ c (Proc.devRef .tc main_arg4) = m ((c : Thread nD τ).loc main_arg4) := (W5_of_ne m ρ c main_arg4 (by decide)).trans (at4_arg4 m ρ c)
theorem at5_arg5 (c : Dev nD) : W5 m ρ c (Proc.devRef .tc main_arg5) = m ((c : Thread nD τ).loc main_arg5) := (W5_of_ne m ρ c main_arg5 (by decide)).trans (at4_arg5 m ρ c)

/-! ## After the third host stretch -/

theorem at6_conv2 (c : Dev nD) : W6 m ρ c (Proc.devRef .tc main_v56) = conv2 m c := by
  have e : W6 m ρ c (Proc.devRef .tc main_v56) = Cert.Spec.agg (W5 m ρ c (Proc.devRef .tc main_v43)) (W5 m ρ c (Proc.devRef .tc main_v3))
      (W5 m ρ c (Proc.devRef .tc main_v6)) (W5 m ρ c (Proc.devRef .tc main_v26)) := by
    show StableHlo.after hostOps3 (W5 m ρ c) (Proc.devRef .tc main_v56) = _
    after_results_simp <;> rfl
  rw [e, at5_h1, at5_srcs, at5_dsts, at5_wts]
theorem at6_row2 (c : Dev nD) : W6 m ρ c (Proc.devRef .tc main_v57) = row2 m c := by
  have e : W6 m ρ c (Proc.devRef .tc main_v57) = shapeCast _ (W5 m ρ c (Proc.devRef .tc main_arg4)) shapeCasts_S16_S1x16 := by
    show StableHlo.after hostOps3 (W5 m ρ c) (Proc.devRef .tc main_v57) = _
    after_results_simp <;> rfl
  rw [e, at5_arg4]
theorem at6_arg5 (c : Dev nD) : W6 m ρ c (Proc.devRef .tc main_arg5) = m ((c : Thread nD τ).loc main_arg5) :=
  (show W6 m ρ c (Proc.devRef .tc main_arg5) = W5 m ρ c (Proc.devRef .tc main_arg5) by stretch_keeps hostOps3 main_arg5).trans (at5_arg5 m ρ c)

/-! ## After region 3: the result -/

theorem at7_result (c : Dev nD) : W7 m ρ c (Proc.devRef .tc main_v58) = result m c :=
  (W7_arr m ρ c 3).trans ((Region3.value (V6 m ρ) c).trans (by
    rw [show V6 m ρ c (Pipeline.arrRef spec3 0) = _ from at6_conv2 m ρ c, show V6 m ρ c (Pipeline.arrRef spec3 1) = _ from at6_row2 m ρ c,
      show V6 m ρ c (Pipeline.arrRef spec3 2) = _ from at6_arg5 m ρ c]))

/-- The result is the encoder of the launch contents, the two biases as the rows the host stretches made of them. -/
theorem result_eq (c : Dev nD) :
    result m c = Cert.Spec.encode (m ((c : Thread nD τ).loc main_arg0)) (m ((c : Thread nD τ).loc main_arg1)) (row1 m c) (m ((c : Thread nD τ).loc main_arg3)) (row2 m c)
      (m ((c : Thread nD τ).loc main_arg5)) (m ((c : Thread nD τ).loc main_arg6)) := by
  unfold Cert.Spec.encode
  rfl

/-- A 16-vector reshaped to one row is the vector broadcast along a new leading axis of extent one. -/
theorem row_eq (b : (⟨Cert.ReferenceIdeal.S16, .f32⟩ : BufTy).Contents (Elt Ideal)) (h : Cert.ReferenceIdeal.S16.ShapeCasts Cert.ReferenceIdeal.S1x16) :
    shapeCast Cert.ReferenceIdeal.S1x16 b h = Cert.Spec.asRow b := by
  funext j
  obtain ⟨u, i, rfl⟩ : ∃ (u : Fin 1) (i : Fin 16), j = ix2 u i := ⟨j 0, j 1, eq_ix2 j⟩
  rw [shapeCast_a_1a_apply]
  unfold Cert.Spec.asRow
  rw [broadcastInDim_apply _ _ b (ix2 u i) (ix1 i) (fun a => by
    match a with
    | ⟨0, _⟩ => rfl)]

end Cert.KernelIdeal.Walk

end
-- ==== Proof.RefValue.lean ====
/-
  The reference computes the encoder: its run's result term, the host operations composed over the launch contents
  of the seven arguments, is `Spec.encode` of those contents with each bias vector laid out as a one-row table. Both
  are the same composition of the same operations (the reference merely spells the edge weights out a second time
  for the second layer), so the two terms agree by unfolding the names.
-/
import proofs.«122980_j48808008351905_1_alg».proof.Proof.Gen.ReferenceIdeal.Run
import proofs.«122980_j48808008351905_1_alg».proof.Proof.Spec

noncomputable section

namespace Cert.RefValue

open Idealize.ShloMosaic Idealize.ShloMosaic.TcCoe Idealize.SL.Sem Cert.ReferenceIdeal Cert.ReferenceIdeal.Gen

variable {F : FTy → Type} [FloatOps F]

set_option maxRecDepth 8192 in
theorem result_eq (m : (ℓ : Loc nD τ sig) → Buf (Elt F) ℓ) (c : Dev nD) :
    Cert.ReferenceIdeal.Value.res_main_v81 m c
      = Cert.Spec.encode (m ((c.tc : Thread nD τ).loc main_arg0)) (m ((c.tc : Thread nD τ).loc main_arg1))
          (Cert.Spec.asRow (m ((c.tc : Thread nD τ).loc main_arg2))) (m ((c.tc : Thread nD τ).loc main_arg3))
          (Cert.Spec.asRow (m ((c.tc : Thread nD τ).loc main_arg4))) (m ((c.tc : Thread nD τ).loc main_arg5))
          (m ((c.tc : Thread nD τ).loc main_arg6)) := by
  unfold Cert.ReferenceIdeal.Value.res_main_v81 Cert.Spec.encode Cert.Spec.sample Cert.Spec.biased Cert.Spec.agg Cert.Spec.lin2
    Cert.Spec.lin1 Cert.Spec.relu Cert.Spec.norm Cert.Spec.dis Cert.Spec.wrap Cert.Spec.src Cert.Spec.dst Cert.Spec.asRow
  with_reducible rfl

end Cert.RefValue

end
-- ==== Proof.lean ====
/-
  Two programs compute a two-layer graph-convolution encoder with a reparameterised sample,
      z₁ = relu (Â (x W₁) + b₁),   z = Â (z₁ W₂) + b₂,   result = z + ε · exp (z / 2),
  where Â is the degree-normalised adjacency with self-loops, applied by gathering source rows, scaling by the edge
  weight and summing into destination rows. The kernel program does the two matrix products, the bias-and-relu and the
  bias-and-sample in four blocked kernels and everything about the graph on the host; the reference does all of it on the
  host. On the extended reals they are the same function of the seven arguments (`Spec.encode`):

  * each blocked kernel's output array is one whole-array function of the arrays it is entered with — a product into a
    zero accumulator is the plain sum Σ_k a(r,k)·b(k,q), the same sum the host's product is, and a change of float format
    is the identity (Region0 … Region3);
  * followed through its run, the kernel program's result array holds `Spec.encode` of its arguments, the biases as the
    one-row tables its host stretches reshape them to (Walk);
  * the reference's run ends at the same composition, its biases broadcast to one-row tables (RefValue); a 16-vector
    reshaped to one row and the vector broadcast to one row are the same table (`Walk.row_eq`).

  No law of arithmetic beyond these is used: in particular nothing needs the inputs to be finite. The three programs
  run, fault-free, leaving their arguments as launched: the kernel programs by their whole frame certificates, the
  reference by its run. The idealization rewrote no operation, so there is nothing to preserve.
-/
import proofs.«122980_j48808008351905_1_alg».proof.Defs
import proofs.«122980_j48808008351905_1_alg».proof.Proof.Gen.Kernel
import proofs.«122980_j48808008351905_1_alg».proof.Proof.Gen.Kernel.Frame
import proofs.«122980_j48808008351905_1_alg».proof.Proof.Gen.KernelIdeal
import proofs.«122980_j48808008351905_1_alg».proof.Proof.Gen.KernelIdeal.Frame
import proofs.«122980_j48808008351905_1_alg».proof.Proof.Gen.ReferenceIdeal
import proofs.«122980_j48808008351905_1_alg».proof.Proof.Gen.Pre_finite_inputs
import proofs.«122980_j48808008351905_1_alg».proof.Proof.Gen.ReferenceIdeal.Run
import proofs.«122980_j48808008351905_1_alg».proof.Proof.KernelRun
import proofs.«122980_j48808008351905_1_alg».proof.Proof.Walk
import proofs.«122980_j48808008351905_1_alg».proof.Proof.RefValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both runs end with the result array at `Spec.encode` of the arguments. -/
theorem algebraic : Cert.algebraic_KernelIdeal_ReferenceIdeal := by
  intro m ρ m' ρ' _ hagree
  refine ⟨fun c => Cert.KernelIdeal.Walk.result m c, ?_, ?_⟩
  · exact (θ_run Cert.KernelIdeal.defs _ _).mono
      (fun r h c => ⟨(h c).1.trans (Cert.KernelIdeal.Walk.at7_result m ρ c), (h c).2⟩)
      (Cert.KernelIdeal.RunResult.run_result m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6⟩ := hagree c
    show Cert.ReferenceIdeal.Value.res_main_v81 m' c = Cert.KernelIdeal.Walk.result m c
    rw [Cert.RefValue.result_eq, a0, a1, a2, a3, a4, a5, a6, Cert.KernelIdeal.Walk.result_eq,
      ← Cert.KernelIdeal.Walk.row_eq _ Cert.KernelIdeal.Gen.shapeCasts_S16_S1x16, ← Cert.KernelIdeal.Walk.row_eq _ Cert.KernelIdeal.Gen.shapeCasts_S16_S1x16]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
